-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S100000 .f32) (main_arg2 : FVec F S100000 .f32) (main_arg3 : IVec S1600000 32) (main_arg4 : IVec S1600000 32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S100000x1 : Shape := ⟨2, ![100000, 1]⟩
abbrev S10000x128 : Shape := ⟨2, ![10000, 128]⟩
abbrev S10000x1 : Shape := ⟨2, ![10000, 1]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 25
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000, .f32⟩
  | .hbm, ⟨2, _⟩ => ⟨S100000, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128, .f32⟩
  | .hbm, ⟨7, _⟩ => ⟨S100000x1, .f32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x1, .f32⟩
  | .hbm, ⟨23, _⟩ => ⟨S1x128, .f32⟩
  | .hbm, ⟨24, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S128x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000 : Shape := ⟨1, ![100000]⟩
abbrev S1600000 : Shape := ⟨1, ![1600000]⟩
abbrev S128x128 : Shape := ⟨2, ![128, 128]⟩
abbrev S128 : Shape := ⟨1, ![128]⟩
abbrev S100000x1 : Shape := ⟨2, ![100000, 1]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .f32⟩
  | .hbm, ⟨2, _⟩ => ⟨S100000, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128, .f32⟩
  | .hbm, ⟨7, _⟩ => ⟨S100000x1, .f32⟩
  | .hbm, ⟨8, _⟩ => ⟨S100000x128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Layout.lean ====
/-
  Two layout facts about a per-row scale kept as a one-column matrix.

  A vector of one number per row is handed to a row-blocked computation as a matrix with a single
  column; inside a block that column is spread along the rows' entries.  Read at a position
  `(p, q)` both steps are plain: the column made from a vector holds the vector's entry `p` in row
  `p`, and a column spread over `b` columns holds, at `(p, q)`, the column's entry in row `p`.
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

variable {α : Type}

/-- A vector `[a]` recast as a column `[a, 1]` reads, at `(p, u)`, the vector's entry `p`: the
    row-major position of `(p, u)` in a one-column matrix is `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` columns reads, at `(p, q)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Gcn.Layout
-- ==== Proof.Body.lean ====
/-
  What the two kernel bodies compute on one block of `10000` rows, entry by entry, over the
  extended reals.

  The first body divides each entry of its feature block by the block's per-row scale, the scale
  being a one-column block spread along the row:
      pay₀ x n [p, q] = x[p, q] / n[p, 0].
  The second body first scales its block the same way, then multiplies by the transposed weight
  block, accumulating into zeros, and adds the bias row.  A change of float format is the identity
  on the extended reals, a product accumulated into zeros is the plain sum of products, and the
  transposed weights read at `(k, o)` are the weights at `(o, k)`:
      pay₁ x n W b [p, o] = (∑ k, (x[p, k] / n[p, 0]) * W[o, k]) + b[0, o].
-/
import proofs.«113906_j22565758173846_1_alg».proof.Proof.Gen.KernelIdeal.Skeleton
import proofs.«113906_j22565758173846_1_alg».proof.Proof.LibDot2
import proofs.«113906_j22565758173846_1_alg».proof.Proof.Layout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Cert.Gcn.Layout

/-- The scaling body at `(p, q)`: the feature entry over the row's scale. -/
theorem pay0_apply (x : Vec Ideal S10000x128 .f32) (n : Vec Ideal S10000x1 .f32) (p : Fin 10000) (q : Fin 128) :
    k0_pay1 (F := Ideal) x n (ix2 p q) = Ideal.div (x (ix2 p q)) (n (ix2 p (0 : Fin 1))) := by
  show Ideal.div (x (ix2 p q))
      (broadcastTo S10000x128 (shapeCast S10000x1 n shapeCasts_S10000x1_S10000x1) broadcasts_S10000x1_S10000x128 (ix2 p q)) = _
  rw [broadcastTo_a1_ab_apply, shapeCast_self]

/-- The block product's dimension numbers are those of the plain matrix product. -/
theorem dot_eq : dot_S10000x128_S128x128_S10000x128_1_0_0_1_n_n
    = Dot2.mmDims 10000 128 128 dot_S10000x128_S128x128_S10000x128_1_0_0_1_n_n_wf := rfl

/-- The affine body at `(p, o)`: the scaled row times the weights' row `o`, plus the bias. -/
theorem pay1_apply (x : Vec Ideal S10000x128 .f32) (n : Vec Ideal S10000x1 .f32) (W : Vec Ideal S128x128 .f32)
    (b : Vec Ideal S1x128 .f32) (p : Fin 10000) (o : Fin 128) :
    k1_pay1 (F := Ideal) x n W b (ix2 p o)
      = (∑ k : Fin 128, Ideal.div (x (ix2 p k)) (n (ix2 p (0 : Fin 1))) * W (ix2 o k)) + b (ix2 (0 : Fin 1) o) := by
  show FloatOps.matmul (F := Ideal) dot_S10000x128_S128x128_S10000x128_1_0_0_1_n_n none
        (truncf (F := Ideal) (φ := .f32) .bf16 (divf (F := Ideal) (φ := .f32) (shapeCast S10000x128 x shapeCasts_S10000x128_S10000x128)
          (broadcastTo S10000x128 (shapeCast S10000x1 n shapeCasts_S10000x1_S10000x1) broadcasts_S10000x1_S10000x128)) bitsLt_bf16_f32)
        (transpose S128x128 [1, 0] (truncf (F := Ideal) (φ := .f32) .bf16 W bitsLt_bf16_f32) transposes_S128x128_p1_0_S128x128)
        (constant (F := Ideal) S10000x128 .f32 0x00000000#32) (ix2 p o)
      + broadcastTo S10000x128 (shapeCast S1x128 b shapeCasts_S1x128_S1x128) broadcasts_S1x128_S10000x128 (ix2 p o) = _
  rw [dot_eq, Dot2.matmul_zero_mm_apply, broadcastTo_1b_ab_apply]
  simp only [shapeCast_self]
  refine congrArg (· + b (ix2 (0 : Fin 1) o)) (Finset.sum_congr rfl fun k _ => ?_)
  rw [transpose_ix2_apply]
  show Ideal.div (x (ix2 p k)) (broadcastTo S10000x128 n broadcasts_S10000x1_S10000x128 (ix2 p k)) * W (ix2 o k) = _
  rw [broadcastTo_a1_ab_apply]

end Cert.KernelIdeal.Body

end
-- ==== Proof.Region0.lean ====
/-
  The array the first region leaves, as one function of the arrays it is entered with.

  The region walks the `100000` rows in ten blocks of `10000`; at block `t` it reads rows
  `10000·t … 10000·t + 9999` of the feature matrix and of the one-column scale, and writes back the
  same rows of the result, each entry the feature over its row's scale.  The ten blocks tile the
  rows (the block holding row `r` is `r / 10000`), so after the run the whole result array is
      scaledBy x n [r, q] = x[r, q] / n[r, 0].
-/
import proofs.«113906_j22565758173846_1_alg».proof.Proof.Gen.KernelIdeal.Frame
import proofs.«113906_j22565758173846_1_alg».proof.Proof.Body
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- Every entry over its row's scale, the scale kept as a one-column matrix. -/
def scaledBy (x : S100000x128.Idx → EReal) (n : S100000x1.Idx → EReal) : S100000x128.Idx → EReal :=
  fun i => Ideal.div (x i) (n (ix2 (i 0) (0 : Fin 1)))

/-- At block `t` all three windows sit at row-block `t`, column-block `0`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- One block's worth: if the block entries at `(p, q)` and `(p, 0)` are the array entries at `i` and at row
    `i₀`, the body's value at `(p, q)` is the whole-array function at `i`. -/
theorem block_value (x : Vec Ideal S10000x128 .f32) (n : Vec Ideal S10000x1 .f32)
    (X : S100000x128.Idx → EReal) (N : S100000x1.Idx → EReal) (i : S100000x128.Idx) (p : Fin 10000) (q : Fin 128)
    (hx : x (ix2 p q) = X i) (hn : n (ix2 p (0 : Fin 1)) = N (ix2 (i 0) (0 : Fin 1))) :
    k0_pay1 (F := Ideal) x n (ix2 p q) = scaledBy X N i := by
  rw [Body.pay0_apply, hx, hn]
  rfl

/-- WHAT BLOCK `t` WRITES BACK is block `t` of the whole-array function of the arrays as entered. -/
theorem flushed_eq (c : Dev nD) (t : Fin cfg0.N) :
    (dat0 V c).flushed 2 t = ((cfg0.win 2).blk t).view.read (Elt Ideal) (scaledBy (V c main_arg0) (V c main_v0)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S10000x1) offsets_zero]
  obtain ⟨e0, e1, e2, e3, e4, e5⟩ := block_index t
  funext j
  obtain ⟨p, q, rfl⟩ : ∃ (p : Fin 10000) (q : Fin 128), j = ix2 p q := ⟨j 0, j 1, eq_ix2 j⟩
  refine block_value (iblk0 V c 0 t) (iblk0 V c 1 t) (V c main_arg0) (V c main_v0)
    (((cfg0.win 2).blk t).view.emb (ix2 p q)) p q ?_ ?_
  · show V c main_arg0 (((cfg0.win 0).blk t).view.emb (ix2 p q)) = V c main_arg0 (((cfg0.win 2).blk t).view.emb (ix2 p q))
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * q.val = win0_2.index t (1 : Fin 2) * 128 + 1 * q.val; omega
  · show V c main_v0 (((cfg0.win 1).blk t).view.emb (ix2 p (0 : Fin 1)))
        = V c main_v0 (ix2 ((((cfg0.win 2).blk t).view.emb (ix2 p q)) 0) (0 : Fin 1))
    refine congrArg (V c main_v0) (funext fun a => Fin.ext ?_)
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega

/-- A position of the result array is in block `t` iff each coordinate is in the block's range. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v1).slice (win0_2.rect t)).set ↔ _
  rw [View.set_slice_whole, Rect.mem_set_unit]
  exact Iff.rfl

/-- The ten row blocks tile the array: row `r` lies in block `r / 10000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show _ < grid0.N; rw [N_0]; omega⟩, rfl⟩
  obtain ⟨e0, e1, e2, e3, e4, e5⟩ := block_index t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE ARRAY after the region: every entry of the feature array over its row's scale. -/
theorem final (c : Dev nD) : (dat0 V c).arrAt 2 cfg0.N = scaledBy (V c main_arg0) (V c main_v0) :=
  (dat0 V c).arrAt_eq_of_cover 2 _ (fun t _ => flushed_eq V c t) covered

end Cert.KernelIdeal.Region0

end
-- ==== Proof.Region1.lean ====
/-
  The array the second region leaves, as one function of the arrays it is entered with.

  The region walks the `100000` rows in ten blocks of `10000`; at block `t` it reads rows
  `10000·t … 10000·t + 9999` of the aggregated features and of the one-column scale, and the whole
  weight matrix and bias row (their one block is the whole array at every `t`), and writes back the
  same rows of the result.  The ten blocks tile the rows, so after the run the result array is
      affineOf a n W b [r, o] = (∑ k, (a[r, k] / n[r, 0]) * W[o, k]) + b[0, o].
-/
import proofs.«113906_j22565758173846_1_alg».proof.Proof.Gen.KernelIdeal.Frame
import proofs.«113906_j22565758173846_1_alg».proof.Proof.Body
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- Row `r` over its scale, times the weights' row `o`, plus the bias: the scale a one-column matrix,
    the bias a one-row matrix. -/
def affineOf (a : S100000x128.Idx → EReal) (n : S100000x1.Idx → EReal) (W : S128x128.Idx → EReal)
    (b : S1x128.Idx → EReal) : S100000x128.Idx → EReal :=
  fun i => (∑ k : Fin 128, Ideal.div (a (ix2 (i 0) k)) (n (ix2 (i 0) (0 : Fin 1))) * W (ix2 (i 1) k))
    + b (ix2 (0 : Fin 1) (i 1))

/-- At block `t` the row-blocked windows sit at row-block `t`, the weights and the bias at their one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One block's worth: if the block's row `p` of features and scale is the arrays' row `i₀`, the column is
    `i₁ = o`, and the weight and bias blocks are the whole arrays, the body's value at `(p, o)` is the
    whole-array function at `i`. -/
theorem block_value (x : Vec Ideal S10000x128 .f32) (n : Vec Ideal S10000x1 .f32) (w : Vec Ideal S128x128 .f32)
    (b : Vec Ideal S1x128 .f32)
    (A : S100000x128.Idx → EReal) (N : S100000x1.Idx → EReal) (W : S128x128.Idx → EReal) (B : S1x128.Idx → EReal)
    (i : S100000x128.Idx) (p : Fin 10000) (o : Fin 128)
    (hcol : (i 1).val = o.val)
    (hx : ∀ k : Fin 128, x (ix2 p k) = A (ix2 (i 0) k))
    (hn : n (ix2 p (0 : Fin 1)) = N (ix2 (i 0) (0 : Fin 1)))
    (hw : w = W) (hb : b = B) :
    k1_pay1 (F := Ideal) x n w b (ix2 p o) = affineOf A N W B i := by
  have hi1 : (i 1 : Fin 128) = o := Fin.ext hcol
  rw [Body.pay1_apply, hn, hw, hb]
  show (∑ k : Fin 128, Ideal.div (x (ix2 p k)) (N (ix2 (i 0) (0 : Fin 1))) * W (ix2 o k)) + B (ix2 (0 : Fin 1) o)
    = (∑ k : Fin 128, Ideal.div (A (ix2 (i 0) k)) (N (ix2 (i 0) (0 : Fin 1))) * W (ix2 (i 1 : Fin 128) k))
        + B (ix2 (0 : Fin 1) (i 1 : Fin 128))
  rw [hi1]
  refine congrArg (· + B (ix2 (0 : Fin 1) o)) (Finset.sum_congr rfl fun k _ => ?_)
  rw [hx k]

/-- WHAT BLOCK `t` WRITES BACK is block `t` of the whole-array function of the arrays as entered. -/
theorem flushed_eq (c : Dev nD) (t : Fin cfg1.N) :
    (dat1 V c).flushed 4 t = ((cfg1.win 4).blk t).view.read (Elt Ideal)
      (affineOf (V c main_v11) (V c main_v12) (V c main_arg5) (V c main_v13)) := by
  show (cfg1.win 4).cut (grid1.coords t) ((dat1 V c).after 4 t) = _
  rw [after1_4]
  unfold out1_4
  rw [View.canon_unit_zero offsets_zero]
  simp only [View.ld_unit_zero (S := S10000x128) offsets_zero, View.ld_unit_zero (S := S10000x1) offsets_zero,
    View.ld_unit_zero (S := S128x128) offsets_zero, View.ld_unit_zero (S := S1x128) offsets_zero]
  obtain ⟨e0, e1, e2, e3, e4, e5, e6, e7, e8, e9⟩ := block_index t
  funext j
  obtain ⟨p, o, rfl⟩ : ∃ (p : Fin 10000) (o : Fin 128), j = ix2 p o := ⟨j 0, j 1, eq_ix2 j⟩
  refine block_value (iblk1 V c 0 t) (iblk1 V c 1 t) (iblk1 V c 2 t) (iblk1 V c 3 t)
    (V c main_v11) (V c main_v12) (V c main_arg5) (V c main_v13) (((cfg1.win 4).blk t).view.emb (ix2 p o)) p o ?_ ?_ ?_ ?_ ?_
  · show win1_4.index t (1 : Fin 2) * 128 + 1 * o.val = o.val
    omega
  · intro k
    show V c main_v11 (((cfg1.win 0).blk t).view.emb (ix2 p k))
        = V c main_v11 (ix2 ((((cfg1.win 4).blk t).view.emb (ix2 p o)) 0) k)
    refine congrArg (V c main_v11) (funext fun a => Fin.ext ?_)
    match a with
    | ⟨0, _⟩ => show win1_0.index t (0 : Fin 2) * 10000 + 1 * p.val = win1_4.index t (0 : Fin 2) * 10000 + 1 * p.val; omega
    | ⟨1, _⟩ => show win1_0.index t (1 : Fin 2) * 128 + 1 * k.val = k.val; omega
  · show V c main_v12 (((cfg1.win 1).blk t).view.emb (ix2 p (0 : Fin 1)))
        = V c main_v12 (ix2 ((((cfg1.win 4).blk t).view.emb (ix2 p o)) 0) (0 : Fin 1))
    refine congrArg (V c main_v12) (funext fun a => Fin.ext ?_)
    match a with
    | ⟨0, _⟩ => show win1_1.index t (0 : Fin 2) * 10000 + 1 * p.val = win1_4.index t (0 : Fin 2) * 10000 + 1 * p.val; omega
    | ⟨1, _⟩ => show win1_1.index t (1 : Fin 2) * 1 + 1 * 0 = 0; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v13 (((cfg1.win 3).blk t).view.emb y) = V c main_v13 y
    refine congrArg (V c main_v13) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega

/-- A position of the result array is in block `t` iff each coordinate is in the block's range. -/
theorem mem_blk (t : Fin cfg1.N) (i : S100000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v14).slice (win1_4.rect t)).set ↔ _
  rw [View.set_slice_whole, Rect.mem_set_unit]
  exact Iff.rfl

/-- The ten row blocks tile the array: row `r` lies in block `r / 10000`. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by show _ < grid1.N; rw [N_1]; omega⟩, rfl⟩
  obtain ⟨e0, e1, e2, e3, e4, e5, e6, e7, e8, e9⟩ := block_index t
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- THE ARRAY after the region: the scaled rows through the affine map. -/
theorem final (c : Dev nD) : (dat1 V c).arrAt 4 cfg1.N
    = affineOf (V c main_v11) (V c main_v12) (V c main_arg5) (V c main_v13) :=
  (dat1 V c).arrAt_eq_of_cover 4 _ (fun t _ => flushed_eq V c t) covered

end Cert.KernelIdeal.Region1

end
-- ==== Proof.KValue.lean ====
/-
  The kernel program's result array as one function of the seven argument arrays.

  The program is two row-blocked regions with host steps around them.  The outgoing scale is
  recast as a one-column matrix; the first region leaves every feature over its row's scale; the
  host then normalises the source indices, gathers a row per edge and adds the rows into the
  destination nodes (kept here as ONE function `neighbourSum` of the scaled features and the two
  index arrays), and recasts the incoming scale as a column and the bias as a row; the second
  region leaves the scaled sums through the affine map.  No step writes an argument array, so each
  boundary reads the arguments as launched.
-/
import proofs.«113906_j22565758173846_1_alg».proof.Proof.KRun
import proofs.«113906_j22565758173846_1_alg».proof.Proof.Region0
import proofs.«113906_j22565758173846_1_alg».proof.Proof.Region1
import Idealize.ShloMosaic.Lib.StableHlo.Run
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.ShloMosaic.StableHlo
open Idealize.SL.Sem

/-- The sum over each node's incoming edges of the source nodes' rows of `h`: the source indices
    normalised, a row gathered per edge, the rows added into the destination nodes from zero. -/
def neighbourSum (h : FVec Ideal S100000x128 .f32) (src dst : IVec S1600000 32) : FVec Ideal S100000x128 .f32 :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The program's result as a function of its arguments: features `a0`, incoming scale `a1`, outgoing
    scale `a2`, edge sources `a3` and destinations `a4`, weights `a5`, bias `a6`. -/
def kernelValue (a0 : FVec Ideal S100000x128 .f32) (a1 a2 : FVec Ideal S100000 .f32) (a3 a4 : IVec S1600000 32)
    (a5 : FVec Ideal S128x128 .f32) (a6 : FVec Ideal S128 .f32) : FVec Ideal S100000x128 .f32 :=
  Region1.affineOf
    (neighbourSum (Region0.scaledBy a0 (shapeCast S100000x1 a2 shapeCasts_S100000_S100000x1)) a3 a4)
    (shapeCast S100000x1 a1 shapeCasts_S100000_S100000x1) a5 (shapeCast S1x128 a6 shapeCasts_S128_S1x128)

variable (m : (ℓ : Loc nD τ sig) → Buf (Elt Ideal) ℓ) (ρ : Dev nD → PrngReg)

/-! ## Entering the first region -/

theorem V1_arg0 (c : Dev nD) : V1 m ρ c main_arg0 = m ((c : Thread nD τ).loc main_arg0) := by
  show StableHlo.after hostOps0 (W0 m ρ c) (Proc.devRef .tc main_arg0) = _
  after_results

theorem V1_v0 (c : Dev nD) :
    V1 m ρ c main_v0 = shapeCast S100000x1 (m ((c : Thread nD τ).loc main_arg2)) shapeCasts_S100000_S100000x1 := by
  show StableHlo.after hostOps0 (W0 m ρ c) (Proc.devRef .tc main_v0) = _
  after_results
  rfl

/-! ## Leaving the first region: its result, and the arguments it does not touch -/

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

theorem W2_v1 (c : Dev nD) : W2 m ρ c (Proc.devRef .tc main_v1)
    = Region0.scaledBy (m ((c : Thread nD τ).loc main_arg0)) (shapeCast S100000x1 (m ((c : Thread nD τ).loc main_arg2)) shapeCasts_S100000_S100000x1) := by
  refine (W2_arr m ρ c 2).trans ((Region0.final (V1 m ρ) c).trans ?_)
  rw [V1_arg0, V1_v0]

/-! ## Entering the second region -/

theorem V3_v11 (c : Dev nD) : V3 m ρ c main_v11
    = neighbourSum (Region0.scaledBy (m ((c : Thread nD τ).loc main_arg0)) (shapeCast S100000x1 (m ((c : Thread nD τ).loc main_arg2)) shapeCasts_S100000_S100000x1))
        (m ((c : Thread nD τ).loc main_arg3)) (m ((c : Thread nD τ).loc main_arg4)) := by
  show StableHlo.after hostOps1 (W2 m ρ c) (Proc.devRef .tc main_v11) = _
  after_results
  rw [W2_arg3, W2_arg4, W2_v1]
  rfl

theorem V3_v12 (c : Dev nD) :
    V3 m ρ c main_v12 = shapeCast S100000x1 (m ((c : Thread nD τ).loc main_arg1)) shapeCasts_S100000_S100000x1 := by
  show StableHlo.after hostOps1 (W2 m ρ c) (Proc.devRef .tc main_v12) = _
  after_results
  rw [W2_arg1]
  rfl

theorem V3_arg5 (c : Dev nD) : V3 m ρ c main_arg5 = m ((c : Thread nD τ).loc main_arg5) := by
  show StableHlo.after hostOps1 (W2 m ρ c) (Proc.devRef .tc main_arg5) = _
  after_results
  exact W2_arg5 m ρ c

theorem V3_v13 (c : Dev nD) :
    V3 m ρ c main_v13 = shapeCast S1x128 (m ((c : Thread nD τ).loc main_arg6)) shapeCasts_S128_S1x128 := by
  show StableHlo.after hostOps1 (W2 m ρ c) (Proc.devRef .tc main_v13) = _
  after_results
  rw [W2_arg6]
  rfl

/-! ## The result array at the last boundary, and the run -/

theorem V4_v14 (c : Dev nD) : V4 m ρ c main_v14
    = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((hF1 m ρ c 4).symm.trans (Region1.final (V3 m ρ) c)).trans ?_
  rw [V3_v11, V3_v12, V3_arg5, V3_v13]
  rfl

/-- Every weakly fair execution of the program terminates without a fault with the result array at
    `kernelValue` of the launch contents of the arguments, and the arguments unchanged. -/
theorem run : θ_run defs (onTc (τ := τ) (main (F := Ideal))) ⟨m, fun _ => 0, ρ⟩ (fun r => ∀ c : Dev nD,
      r.2.mem ((c.tc : Thread nD τ).loc main_v14)
        = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (V4_v14 m ρ c), (h c).2⟩) (RunValue.run_result m ρ)

end Cert.KernelIdeal.KValue

end
-- ==== Proof.Spec.lean ====
/-
  The two dense stages of a graph-convolution layer, as functions of whole arrays over the
  extended reals.

  A layer over `100000` nodes with `128` features does, around its (sparse) neighbourhood sum,
  two dense things.  It divides every row of a node-feature matrix by that node's own scale,
      rowScaled x d [p, q] = x[p, q] / d[p],
  and it applies an affine map with a `128 × 128` weight matrix (stored output-major) and a bias,
      affine x W b [p, o] = (∑ k, x[p, k] * W[o, k]) + b[o].
  The quotient is the extended reals' total quotient, so nothing is asked of the scales.
-/
import Idealize.ShloMosaic.PureOps.Ideal
import Idealize.ShloMosaic.Lib.ValueIdx

noncomputable section

open scoped BigOperators

namespace Cert.Gcn

open Idealize.ShloMosaic Idealize.ShloMosaic.ValueIdx

/-- One number per node and feature. -/
abbrev NodeFeat : Shape := ⟨2, ![100000, 128]⟩
/-- One number per node. -/
abbrev NodeVec : Shape := ⟨1, ![100000]⟩
/-- The weights, one row per output feature. -/
abbrev WeightMat : Shape := ⟨2, ![128, 128]⟩
/-- One number per output feature. -/
abbrev FeatVec : Shape := ⟨1, ![128]⟩

/-- Every row divided by its node's scale: `x[p, q] / d[p]`. -/
def rowScaled (x : NodeFeat.Idx → EReal) (d : NodeVec.Idx → EReal) : NodeFeat.Idx → EReal :=
  fun i => Ideal.div (x i) (d (ix1 (i 0)))

/-- The affine map: `(∑ k, x[p, k] * W[o, k]) + b[o]`. -/
def affine (x : NodeFeat.Idx → EReal) (W : WeightMat.Idx → EReal) (b : FeatVec.Idx → EReal) :
    NodeFeat.Idx → EReal :=
  fun i => (∑ k : Fin 128, x (ix2 (i 0) k) * W (ix2 (i 1) k)) + b (ix1 (i 1))

theorem rowScaled_apply (x : NodeFeat.Idx → EReal) (d : NodeVec.Idx → EReal) (p : Fin 100000) (q : Fin 128) :
    rowScaled x d (ix2 p q) = Ideal.div (x (ix2 p q)) (d (ix1 p)) := rfl

theorem affine_apply (x : NodeFeat.Idx → EReal) (W : WeightMat.Idx → EReal) (b : FeatVec.Idx → EReal)
    (p : Fin 100000) (o : Fin 128) :
    affine x W b (ix2 p o) = (∑ k : Fin 128, x (ix2 p k) * W (ix2 o k)) + b (ix1 o) := rfl

end Cert.Gcn

end
-- ==== Proof.RefValue.lean ====
/-
  The reference, read as the specification.

  The reference divides the features row by row by the outgoing scale, gathers a row per edge by
  its source node and sums the gathered rows into the edges' destination nodes, divides the sums
  row by row by the incoming scale, multiplies by the transposed weights and adds the bias.  The
  gather-and-sum in the middle is kept as ONE function `neighbourSum` of the scaled features and the
  two index arrays: nothing about it is used but that it is a function.  Around it the two dense
  stages are the specification's `rowScaled` and `affine`, entry by entry: a scale spread from a
  vector reads the vector's entry of the row, the transposed weights at `(k, o)` are the weights
  at `(o, k)`, the general dot product is the sum of products over the contracted coordinate, and
  the bias spread over the rows reads the bias entry of the column.
-/
import proofs.«113906_j22565758173846_1_alg».proof.Proof.Gen.ReferenceIdeal.Run
import proofs.«113906_j22565758173846_1_alg».proof.Proof.Gen.ReferenceIdeal.Read
import proofs.«113906_j22565758173846_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Gcn

/-- The sum over each node's incoming edges of the source nodes' rows of `h`: the source indices
    normalised, a row gathered per edge, the rows added into the destination nodes from zero. -/
def neighbourSum (h : FVec Ideal S100000x128 .f32) (src dst : IVec S1600000 32) : FVec Ideal S100000x128 .f32 :=
  Host.scatterAdd (F := Ideal) (φ := .f32) scatter_S100000x128_S1600000x1_S1600000x128_1_0_0_1 (val_main_v10 (F := Ideal))
    (val_main_v11 (F := Ideal) dst)
    (Host.gather gather_S100000x128_S1600000x1_S1600000x128_1_0_n_n_0_1_1128 h (val_main_v8 (F := Ideal) src))

/-- The aggregated features are the neighbourhood sum of the scaled features. -/
theorem aggregated_eq (x0 : (⟨S100000x128, .f32⟩ : BufTy).Contents (Elt Ideal))
    (x2 : (⟨S100000, .f32⟩ : BufTy).Contents (Elt Ideal)) (x3 x4 : (⟨S1600000, .i32⟩ : BufTy).Contents (Elt Ideal)) :
    val_main_v12 (F := Ideal) x0 x2 x3 x4 = neighbourSum (val_main_v2 (F := Ideal) x0 x2) x3 x4 := rfl

/-- The first dense stage: every feature over its node's outgoing scale. -/
theorem scaled_eq (x0 : (⟨S100000x128, .f32⟩ : BufTy).Contents (Elt Ideal))
    (x2 : (⟨S100000, .f32⟩ : BufTy).Contents (Elt Ideal)) :
    val_main_v2 (F := Ideal) x0 x2 = rowScaled x0 x2 := by
  funext i
  rw [val_main_v2_apply, val_main_v1_apply, val_main_v0_apply]
  show Ideal.div (x0 i) (x2 (idx_main_v0 (idx_main_v1 i))) = Ideal.div (x0 i) (x2 (ix1 (i 0)))
  refine congrArg (fun z => Ideal.div (x0 i) (x2 z)) (funext fun a => ?_)
  match a with
  | ⟨0, _⟩ => rfl

/-- The whole reference: the affine map of the row-scaled neighbourhood sum of the row-scaled features. -/
theorem result_eq (x0 : (⟨S100000x128, .f32⟩ : BufTy).Contents (Elt Ideal))
    (x1 x2 : (⟨S100000, .f32⟩ : BufTy).Contents (Elt Ideal)) (x3 x4 : (⟨S1600000, .i32⟩ : BufTy).Contents (Elt Ideal))
    (x5 : (⟨S128x128, .f32⟩ : BufTy).Contents (Elt Ideal)) (x6 : (⟨S128, .f32⟩ : BufTy).Contents (Elt Ideal)) :
    val_main_v20 (F := Ideal) x0 x1 x2 x3 x4 x5 x6
      = affine (rowScaled (neighbourSum (rowScaled x0 x2) x3 x4) x1) x5 x6 := by
  funext i
  rw [val_main_v20_apply, val_main_v17_apply, val_main_v19_apply, val_main_v18_apply]
  have hb : idx_main_v18 (idx_main_v19 i) = ix1 (i 1) := funext fun a => match a with | ⟨0, _⟩ => rfl
  rw [hb]
  show (∑ k : Fin 128, val_main_v15 (F := Ideal) x0 x1 x2 x3 x4 (lidx_main_v17 i k)
        * val_main_v16 (F := Ideal) x5 (ridx_main_v17 i k)) + x6 (ix1 (i 1))
    = (∑ k : Fin 128, rowScaled (neighbourSum (rowScaled x0 x2) x3 x4) x1 (ix2 (i 0) k) * x5 (ix2 (i 1) k))
        + x6 (ix1 (i 1))
  refine congrArg (· + x6 (ix1 (i 1))) (Finset.sum_congr rfl fun k _ => ?_)
  rw [val_main_v15_apply, val_main_v14_apply, val_main_v13_apply, val_main_v16_apply, aggregated_eq, scaled_eq]
  have h1 : lidx_main_v17 i k = ix2 (i 0) k := funext fun a => match a with | ⟨0, _⟩ => rfl | ⟨1, _⟩ => rfl
  have h2 : idx_main_v16 (ridx_main_v17 i k) = ix2 (i 1) k := funext fun a => match a with | ⟨0, _⟩ => rfl | ⟨1, _⟩ => rfl
  have h3 : idx_main_v13 (idx_main_v14 (lidx_main_v17 i k)) = ix1 (i 0) := funext fun a => match a with | ⟨0, _⟩ => rfl
  rw [h3, h2, h1]
  rfl

end Cert.ReferenceIdeal.RefValue

end
-- ==== Proof.Bridge.lean ====
/-
  The kernel program and the reference compute one function of the arguments.

  Both are: features over the outgoing scale, row by row; the neighbourhood sum of that; the sums
  over the incoming scale, row by row; the affine map.  The two programs differ only in how the
  scales and the bias are laid out on the way (a vector recast as a one-column or one-row matrix on
  one side, spread from the vector on the other), which reads the same vector entry either way,
  and in where the product is formed (inside the row blocks, with the weights transposed there, or
  over the whole matrix), which is the same sum of products entry by entry.  The neighbourhood sum
  is the same function on both sides and is never opened.
-/
import proofs.«113906_j22565758173846_1_alg».proof.Proof.KValue
import proofs.«113906_j22565758173846_1_alg».proof.Proof.RefValue
import proofs.«113906_j22565758173846_1_alg».proof.Proof.Spec
import proofs.«113906_j22565758173846_1_alg».proof.Proof.Layout
import Idealize.ShloMosaic.Lib.ValueLayout

set_option maxRecDepth 16384

noncomputable section

open scoped BigOperators

namespace Cert.Bridge

open Idealize.ShloMosaic Idealize.ShloMosaic.ValueIdx Cert.Gcn Cert.Gcn.Layout

/-- The neighbourhood sum is spelt alike in the two programs. -/
theorem neighbourSum_eq (h : FVec Ideal NodeFeat .f32) (src dst : IVec ⟨1, ![1600000]⟩ 32) :
    Cert.KernelIdeal.KValue.neighbourSum h src dst = Cert.ReferenceIdeal.RefValue.neighbourSum h src dst := rfl

/-- Features over a scale kept as a column made from a vector: the specification's row scaling. -/
theorem scaledBy_column (x : NodeFeat.Idx → EReal) (d : NodeVec.Idx → EReal)
    (h : NodeVec.ShapeCasts ⟨2, ![100000, 1]⟩) :
    Cert.KernelIdeal.Region0.scaledBy x (shapeCast ⟨2, ![100000, 1]⟩ d h) = rowScaled x d := by
  funext i
  obtain ⟨p, q, rfl⟩ : ∃ (p : Fin 100000) (q : Fin 128), i = ix2 p q := ⟨i 0, i 1, eq_ix2 i⟩
  show Ideal.div (x (ix2 p q)) (shapeCast ⟨2, ![100000, 1]⟩ d h (ix2 p (0 : Fin 1))) = Ideal.div (x (ix2 p q)) (d (ix1 p))
  rw [shapeCast_a_a1_apply]

/-- The second region's function over a scale column and a bias row made from vectors: the
    specification's affine map of the row-scaled array. -/
theorem affineOf_column_row (a : NodeFeat.Idx → EReal) (d : NodeVec.Idx → EReal) (W : WeightMat.Idx → EReal)
    (b : FeatVec.Idx → EReal) (hd : NodeVec.ShapeCasts ⟨2, ![100000, 1]⟩) (hb : FeatVec.ShapeCasts ⟨2, ![1, 128]⟩) :
    Cert.KernelIdeal.Region1.affineOf a (shapeCast ⟨2, ![100000, 1]⟩ d hd) W (shapeCast ⟨2, ![1, 128]⟩ b hb)
      = affine (rowScaled a d) W b := by
  funext i
  obtain ⟨p, o, rfl⟩ : ∃ (p : Fin 100000) (o : Fin 128), i = ix2 p o := ⟨i 0, i 1, eq_ix2 i⟩
  show (∑ k : Fin 128, Ideal.div (a (ix2 p k)) (shapeCast ⟨2, ![100000, 1]⟩ d hd (ix2 p (0 : Fin 1))) * W (ix2 o k))
        + shapeCast ⟨2, ![1, 128]⟩ b hb (ix2 (0 : Fin 1) o)
    = (∑ k : Fin 128, Ideal.div (a (ix2 p k)) (d (ix1 p)) * W (ix2 o k)) + b (ix1 o)
  rw [shapeCast_a_a1_apply, shapeCast_a_1a_apply]

/-- The kernel program's result is the reference's, as functions of the seven arguments. -/
theorem kernel_eq_reference (a0 : FVec Ideal NodeFeat .f32) (a1 a2 : FVec Ideal NodeVec .f32)
    (a3 a4 : IVec ⟨1, ![1600000]⟩ 32) (a5 : FVec Ideal WeightMat .f32) (a6 : FVec Ideal FeatVec .f32) :
    Cert.KernelIdeal.KValue.kernelValue a0 a1 a2 a3 a4 a5 a6
      = affine (rowScaled (Cert.ReferenceIdeal.RefValue.neighbourSum (rowScaled a0 a2) a3 a4) a1) a5 a6 := by
  unfold Cert.KernelIdeal.KValue.kernelValue
  rw [scaledBy_column, neighbourSum_eq, affineOf_column_row]

end Cert.Bridge

end
-- ==== Proof.lean ====
/-
  A graph-convolution layer in two row-blocked kernel regions, against its array-level reference.

  The layer divides the node features by an outgoing scale, sums over every node's incoming edges
  the scaled rows of the edges' source nodes, divides the sums by an incoming scale, and applies an
  affine map.  The kernel program does the two divisions and the affine map in regions that walk
  the rows in ten blocks and leaves the edge gather and sum to the host; the reference does all of
  it on whole arrays.  Over the extended reals the two results are one function of the arguments
  (`Cert.Bridge.kernel_eq_reference`): the region results are read block by block into whole-array
  functions, the reference is read operation by operation, and the edge gather-and-sum in the
  middle is the same function on both sides, applied to equal arrays.  No property of the inputs is
  used: the equality needs no algebraic law beyond the sum of products both sides spell.

  Each program terminates without a fault and leaves its arguments as launched; the idealised
  kernel program is the kernel program's own text read over the extended reals (no rewrite was
  applied, so nothing is owed for it).
-/
import proofs.«113906_j22565758173846_1_alg».proof.Defs
import proofs.«113906_j22565758173846_1_alg».proof.Proof.Gen.Kernel
import proofs.«113906_j22565758173846_1_alg».proof.Proof.Gen.Kernel.Skeleton
import proofs.«113906_j22565758173846_1_alg».proof.Proof.Gen.Kernel.Launch
import proofs.«113906_j22565758173846_1_alg».proof.Proof.Gen.Kernel.Points
import proofs.«113906_j22565758173846_1_alg».proof.Proof.Gen.Kernel.Frame
import proofs.«113906_j22565758173846_1_alg».proof.Proof.Gen.KernelIdeal
import proofs.«113906_j22565758173846_1_alg».proof.Proof.Gen.KernelIdeal.Skeleton
import proofs.«113906_j22565758173846_1_alg».proof.Proof.Gen.KernelIdeal.Launch
import proofs.«113906_j22565758173846_1_alg».proof.Proof.Gen.KernelIdeal.Points
import proofs.«113906_j22565758173846_1_alg».proof.Proof.Gen.KernelIdeal.Frame
import proofs.«113906_j22565758173846_1_alg».proof.Proof.Gen.ReferenceIdeal
import proofs.«113906_j22565758173846_1_alg».proof.Proof.Gen.ReferenceIdeal.Run
import proofs.«113906_j22565758173846_1_alg».proof.Proof.Gen.ReferenceIdeal.Read
import proofs.«113906_j22565758173846_1_alg».proof.Proof.Gen.Pre_finite_inputs
import proofs.«113906_j22565758173846_1_alg».proof.Proof.KValue
import proofs.«113906_j22565758173846_1_alg».proof.Proof.RefValue
import proofs.«113906_j22565758173846_1_alg».proof.Proof.Bridge
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's run with its result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end with the result array at the kernel program's function of the arguments: the kernel
    program's by its run, the reference's because its own function of the (agreeing) arguments is the same. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.KValue.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6⟩ := hagree c
  rw [g0, g1, g2, g3, g4, g5, g6, Cert.ReferenceIdeal.Read.val_main_v20_eq, Cert.ReferenceIdeal.RefValue.result_eq]
  exact (Cert.Bridge.kernel_eq_reference _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
